-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000 : Shape := ⟨1, ![300000]⟩
abbrev S512x64 : Shape := ⟨2, ![512, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S300000 32) (main_arg2 : IVec S300000 32) (main_arg3 : FVec F S512x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S300000 : Shape := ⟨1, ![300000]⟩
abbrev S512x64 : Shape := ⟨2, ![512, 64]⟩
abbrev S64 : Shape := ⟨1, ![64]⟩
abbrev S256x64 : Shape := ⟨2, ![256, 64]⟩
abbrev S_ : Shape := ⟨0, ![]⟩
abbrev S300000x1 : Shape := ⟨2, ![300000, 1]⟩
abbrev S300000x256 : Shape := ⟨2, ![300000, 256]⟩
abbrev S1x64 : Shape := ⟨2, ![1, 64]⟩
abbrev S300000x64 : Shape := ⟨2, ![300000, 64]⟩
abbrev S5000x256 : Shape := ⟨2, ![5000, 256]⟩
abbrev S5000x64 : Shape := ⟨2, ![5000, 64]⟩

abbrev nBuf : Space → Nat
  | .hbm => 27
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S300000, .i32⟩
  | .hbm, ⟨2, _⟩ => ⟨S300000, .i32⟩
  | .hbm, ⟨3, _⟩ => ⟨S512x64, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S_, .i32⟩
  | .hbm, ⟨8, _⟩ => ⟨S300000, .i32⟩
  | .hbm, ⟨9, _⟩ => ⟨S300000, .i1⟩
  | .hbm, ⟨10, _⟩ => ⟨S_, .i32⟩
  | .hbm, ⟨11, _⟩ => ⟨S300000, .i32⟩
  | .hbm, ⟨12, _⟩ => ⟨S300000, .i32⟩
  | .hbm, ⟨13, _⟩ => ⟨S300000, .i32⟩
  | .hbm, ⟨14, _⟩ => ⟨S300000x1, .i32⟩
  | .hbm, ⟨15, _⟩ => ⟨S300000x256, .f32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x256, .f32⟩
  | .hbm, ⟨25, _⟩ => ⟨S1x64, .f32⟩
  | .hbm, ⟨26, _⟩ => ⟨S300000x64, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x64, .f32⟩
  | .local _ .vmem, ⟨5, _⟩ => ⟨S256x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x64_S256x64_0_0 : S512x64.Slices ![0, 0] S256x64
  slices_S512x64_S256x64_256_0 : S512x64.Slices ![256, 0] S256x64
  bcast_S_S300000 : S_.BroadcastsInDim S300000 (![] : Fin 0 → Fin S300000.rank)
  bcast_S300000_S300000x1_0 : S300000.BroadcastsInDim S300000x1 (![0] : Fin 1 → Fin S300000x1.rank)
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x256_S300000x1_S300000x256_1_0_n_n_0_1_1256_wf : GatherDims.WF S100000x256 S300000x1 S300000x256 [1] [0] [] [0] [] 1 ![1, 256]
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S300000x256.size a
  hwx0_0 : ∀ i : grid0.Coords, EltTy.bits .f32 = 32 ∨ (Rect.block (s := S300000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S300000x256.size a
  hwx0_1 : ∀ i : grid0.Coords, EltTy.bits .f32 = 32 ∨ (Rect.block (s := S300000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S300000x64.size a
  hwx0_5 : ∀ i : grid0.Coords, EltTy.bits .f32 = 32 ∨ (Rect.block (s := S300000x64) S5000x64.size (cc0_transform_5 i) (hinb0_5 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v8) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S300000 : Shape := ⟨1, ![300000]⟩
abbrev S512x64 : Shape := ⟨2, ![512, 64]⟩
abbrev S64 : Shape := ⟨1, ![64]⟩
abbrev S256x64 : Shape := ⟨2, ![256, 64]⟩
abbrev S_ : Shape := ⟨0, ![]⟩
abbrev S300000x1 : Shape := ⟨2, ![300000, 1]⟩
abbrev S300000x256 : Shape := ⟨2, ![300000, 256]⟩
abbrev S300000x64 : Shape := ⟨2, ![300000, 64]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S300000, .i32⟩
  | .hbm, ⟨2, _⟩ => ⟨S300000, .i32⟩
  | .hbm, ⟨3, _⟩ => ⟨S512x64, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S_, .i32⟩
  | .hbm, ⟨8, _⟩ => ⟨S300000, .i32⟩
  | .hbm, ⟨9, _⟩ => ⟨S300000, .i1⟩
  | .hbm, ⟨10, _⟩ => ⟨S_, .i32⟩
  | .hbm, ⟨11, _⟩ => ⟨S300000, .i32⟩
  | .hbm, ⟨12, _⟩ => ⟨S300000, .i32⟩
  | .hbm, ⟨13, _⟩ => ⟨S300000, .i32⟩
  | .hbm, ⟨14, _⟩ => ⟨S300000x1, .i32⟩
  | .hbm, ⟨15, _⟩ => ⟨S300000x256, .f32⟩
  | .hbm, ⟨16, _⟩ => ⟨S300000x64, .f32⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x256, .f32⟩
  | .hbm, ⟨26, _⟩ => ⟨S300000x64, .f32⟩
  | .hbm, ⟨27, _⟩ => ⟨S300000x64, .f32⟩
  | .hbm, ⟨28, _⟩ => ⟨S1x64, .f32⟩
  | .hbm, ⟨29, _⟩ => ⟨S300000x64, .f32⟩
  | .hbm, ⟨30, _⟩ => ⟨S300000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S512x64_S256x64_0_0 : S512x64.Slices ![0, 0] S256x64
  slices_S512x64_S256x64_256_0 : S512x64.Slices ![256, 0] S256x64
  bcast_S_S300000 : S_.BroadcastsInDim S300000 (![] : Fin 0 → Fin S300000.rank)
  bcast_S300000_S300000x1_0 : S300000.BroadcastsInDim S300000x1 (![0] : Fin 1 → Fin S300000x1.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  gather_S100000x256_S300000x1_S300000x256_1_0_n_n_0_1_1256_wf : GatherDims.WF S100000x256 S300000x1 S300000x256 [1] [0] [] [0] [] 1 ![1, 256]
  dot_S300000x256_S256x64_S300000x64_1_0_0_1_n_n_wf : DotDims.WF S300000x256 S256x64 S300000x64 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S256x64_S300000x64_1_0_0_1_n_n : DotDims S300000x256 S256x64 S300000x64 where
  lhsContracting := [1]
  rhsContracting := [0]
  lhsNonContracting := [0]
  rhsNonContracting := [1]
  lhsBatch := []
  rhsBatch := []
  wf := dot_S300000x256_S256x64_S300000x64_1_0_0_1_n_n_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KernelBlock.lean ====
/-
  One grid step's block of scores, entry by entry.

  At a grid step the kernel body holds a block of `5000` gathered source rows and the matching block of destination rows
  (each `5000 × 256`), the two `256 × 64` halves of the weight matrix and the bias as a `1 × 64` row. It narrows the four
  matrices to bf16 (no change on the extended reals), multiplies rows by weights twice into zero accumulators, adds the
  two products and then the bias row broadcast down the block. So entry `(p, q)` of what it stores is
  `(∑ k, xs (p, k) * ws (k, q) + ∑ k, xd (p, k) * wd (k, q)) + bias (0, q)`.
-/
import proofs.«162056_j80539226735106_1_alg».proof.Proof.Gen.KernelIdeal.Skeleton
import proofs.«162056_j80539226735106_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.EdgeScore.Block

open Idealize.ShloMosaic Idealize.ShloMosaic.ValueIdx Cert.KernelIdeal Cert.KernelIdeal.Gen

variable [Cert.KernelIdeal.Facts₀]

/-- The body's product has the plain `5000×256` by `256×64` dimension numbers. -/
theorem dims_plain : dot_S5000x256_S256x64_S5000x64_1_0_0_1_n_n = DotDims.plain 5000 256 64 := rfl

/-- The bias row broadcast down the block reads the row's entry of the same column. -/
theorem bias_bcast (bb : Vec Ideal S1x64 .f32) (p : Fin 5000) (q : Fin 64) :
    broadcastTo S5000x64 bb broadcasts_S1x64_S5000x64 (ix2 p q) = bb (ix2 (0 : Fin 1) q) := by
  refine broadcastTo_apply bb broadcasts_S1x64_S5000x64 (ix2 p q) (ix2 (0 : Fin 1) q) fun a => ?_
  match a with
  | ⟨0, _⟩ => show (0 : Nat) = if (1 : Nat) = 1 then 0 else p.val; rw [if_pos rfl]
  | ⟨1, _⟩ => show q.val = if (64 : Nat) = 1 then 0 else q.val; rw [if_neg (by decide)]

/-- Entry `(p, q)` of the block the body stores. -/
theorem pay_apply (x0 x1 : Vec Ideal S5000x256 .f32) (w0 w1 : Vec Ideal S256x64 .f32) (bb : Vec Ideal S1x64 .f32)
    (p : Fin 5000) (q : Fin 64) :
    k0_pay1 (F := Ideal) x0 x1 w0 w1 bb (ix2 p q)
      = ((∑ k : Fin 256, x0 (ix2 p k) * w0 (ix2 k q) + ∑ k : Fin 256, x1 (ix2 p k) * w1 (ix2 k q) : EReal)
          + bb (ix2 (0 : Fin 1) q) : EReal) := by
  unfold k0_pay1
  simp only [shapeCast_self]
  rw [addf_apply, addf_apply, bias_bcast, dims_plain]
  dsimp only [Idealize.ShloMosaic.matmul]
  rw [Cert.Lib.PlainDot.matmul_zero_apply, Cert.Lib.PlainDot.matmul_zero_apply]
  rfl

end Cert.EdgeScore.Block

end
-- ==== Proof.Spec.lean ====
/-
  The edge score as one function of the gathered rows, the two weight halves and the bias.

  For an edge `e` and a class `c` the score is
  `(∑ k, xs (e, k) * ws (k, c) + ∑ k, xd (e, k) * wd (k, c)) + b c`
  on the extended reals: the source endpoint's feature row against the upper half of the weight matrix, the
  destination endpoint's row against the lower half, the two products added in that order, then the bias of the class.
  Only commutativity-free rearrangements are ever needed to meet this form, so no finiteness of the entries is used.
-/
import Idealize.ShloMosaic.Lib.ValueIdx

noncomputable section

open scoped BigOperators

namespace Cert.EdgeScore

open Idealize.ShloMosaic Idealize.ShloMosaic.ValueIdx

/-- The score array over `E` edges, feature width `D`, `C` classes: entry `(e, c)` is the two row-by-column
    products added, plus the class's bias. -/
def score {E D C : Nat} (xs xd : FVec Ideal ⟨2, ![E, D]⟩ .f32) (ws wd : FVec Ideal ⟨2, ![D, C]⟩ .f32)
    (b : Fin C → EReal) : FVec Ideal ⟨2, ![E, C]⟩ .f32 :=
  fun i => ((∑ k : Fin D, xs (ix2 (i 0) k) * ws (ix2 k (i 1)) + ∑ k : Fin D, xd (ix2 (i 0) k) * wd (ix2 k (i 1)) : EReal)
    + b (i 1) : EReal)

/-- The score at an entry given by its coordinates. -/
theorem score_apply {E D C : Nat} (xs xd : FVec Ideal ⟨2, ![E, D]⟩ .f32) (ws wd : FVec Ideal ⟨2, ![D, C]⟩ .f32)
    (b : Fin C → EReal) (e : Fin E) (c : Fin C) :
    score xs xd ws wd b (ix2 e c)
      = ((∑ k : Fin D, xs (ix2 e k) * ws (ix2 k c) + ∑ k : Fin D, xd (ix2 e k) * wd (ix2 k c) : EReal) + b c : EReal) := rfl

end Cert.EdgeScore

end
-- ==== Proof.KernelArray.lean ====
/-
  From the grid steps' blocks to the whole score array.

  The output has `300000` rows in `60` blocks of `5000`; grid step `t` is handed rows `5000 t … 5000 t + 4999` of the two
  gathered arrays, the two weight halves and the bias row whole, and writes back rows `5000 t … 5000 t + 4999` of the
  result. Row `p` of step `t`'s block is therefore row `5000 t + p` of every array involved, so what the step writes
  back is its block of ONE array: the edge score of the arrays as the region finds them. The sixty blocks tile the
  result (row `r` lies in block `r / 5000`), so after the run the result array is that score.
-/
import proofs.«162056_j80539226735106_1_alg».proof.Proof.Gen.KernelIdeal.Value
import proofs.«162056_j80539226735106_1_alg».proof.Proof.KernelBlock
import proofs.«162056_j80539226735106_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.EdgeScore.Array

open Cert.KernelIdeal Cert.KernelIdeal.Gen Cert.KernelIdeal.Value

variable (m : (ℓ : Loc nD τ sig) → Buf (Elt Ideal) ℓ) (ρ : Dev nD → PrngReg)

theorem offsets_zero : (![0, 0] : Fin 2 → Nat) = fun _ => 0 := funext fun a => by fin_cases a <;> rfl

/-- The block index of every window at grid step `t`: the two gathered arrays and the result move down one block per
    step, the weights and the bias stay at block `(0, 0)` (decided over the sixty steps). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The score of the arrays as the region finds them: what the result array is to hold. -/
abbrev scoreAtEntry (c : Dev nD) : Buf (Elt Ideal) ((c : Thread nD τ).loc main_v17) :=
  Cert.EdgeScore.score (E := 300000) (D := 256) (C := 64) (V m c main_v8) (V m c main_v15) (V m c main_v0) (V m c main_v1)
    (fun q => (V m c main_v16 : S1x64.Idx → EReal) (ix2 (0 : Fin 1) q))

/-- Row `p` of step `t`'s block is row `5000 t + p` of the array. -/
def row (t : Fin cfg0.N) (p : Fin 5000) : Fin 300000 :=
  ⟨t.val * 5000 + p.val, by have h : t.val < 60 := lt_of_lt_of_eq t.isLt N_0; have := p.isLt; omega⟩

/-- The source rows' block at step `t`. -/
theorem xs_block (c : Dev nD) (t : Fin cfg0.N) (p : Fin 5000) (k : Fin 256) :
    (iblk m c 0 t : Vec Ideal S5000x256 .f32) (ix2 p k) = (V m c main_v8 : S300000x256.Idx → EReal) (ix2 (row t p) k) := by
  obtain ⟨e0, e1, -⟩ := block_indices t
  unfold iblk
  rw [View.read_apply]
  show V m c main_v8 _ = V m c main_v8 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 256 + 1 * k.val = k.val; rw [e1]; omega

/-- The destination rows' block at step `t`. -/
theorem xd_block (c : Dev nD) (t : Fin cfg0.N) (p : Fin 5000) (k : Fin 256) :
    (iblk m c 1 t : Vec Ideal S5000x256 .f32) (ix2 p k) = (V m c main_v15 : S300000x256.Idx → EReal) (ix2 (row t p) k) := by
  obtain ⟨-, -, e0, e1, -⟩ := block_indices t
  unfold iblk
  rw [View.read_apply]
  show V m c main_v15 _ = V m c main_v15 _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 256 + 1 * k.val = k.val; rw [e1]; omega

/-- The upper weight half is handed over whole at every step. -/
theorem ws_block (c : Dev nD) (t : Fin cfg0.N) (k : Fin 256) (q : Fin 64) :
    (iblk m c 2 t : Vec Ideal S256x64 .f32) (ix2 k q) = (V m c main_v0 : S256x64.Idx → EReal) (ix2 k q) := by
  obtain ⟨-, -, -, -, e0, e1, -⟩ := block_indices t
  unfold iblk
  rw [View.read_apply]
  show V m c main_v0 _ = V m c main_v0 _
  congr 1
  funext a
  apply Fin.ext
  match a with
  | ⟨0, _⟩ => show win0_2.index t (0 : Fin 2) * 256 + 1 * k.val = k.val; rw [e0]; omega
  | ⟨1, _⟩ => show win0_2.index t (1 : Fin 2) * 64 + 1 * q.val = q.val; rw [e1]; omega

/-- So is the lower weight half. -/
theorem wd_block (c : Dev nD) (t : Fin cfg0.N) (k : Fin 256) (q : Fin 64) :
    (iblk m c 3 t : Vec Ideal S256x64 .f32) (ix2 k q) = (V m c main_v1 : S256x64.Idx → EReal) (ix2 k q) := by
  obtain ⟨-, -, -, -, -, -, e0, e1, -⟩ := block_indices t
  unfold iblk
  rw [View.read_apply]
  show V m c main_v1 _ = V m c main_v1 _
  congr 1
  funext a
  apply Fin.ext
  match a with
  | ⟨0, _⟩ => show win0_3.index t (0 : Fin 2) * 256 + 1 * k.val = k.val; rw [e0]; omega
  | ⟨1, _⟩ => show win0_3.index t (1 : Fin 2) * 64 + 1 * q.val = q.val; rw [e1]; omega

/-- And the bias row. -/
theorem bias_block (c : Dev nD) (t : Fin cfg0.N) (q : Fin 64) :
    (iblk m c 4 t : Vec Ideal S1x64 .f32) (ix2 (0 : Fin 1) q) = (V m c main_v16 : S1x64.Idx → EReal) (ix2 (0 : Fin 1) q) := by
  obtain ⟨-, -, -, -, -, -, -, -, e0, e1, -⟩ := block_indices t
  unfold iblk
  rw [View.read_apply]
  show V m c main_v16 _ = V m c main_v16 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-- Entry `(p, q)` of step `t`'s result block sits at `(5000 t + p, q)` in the result array. -/
theorem out_emb (t : Fin cfg0.N) (p : Fin 5000) (q : Fin 64) :
    (((cfg0.win 5).blk t).view.emb (ix2 p q) : S300000x64.Idx) = ix2 (row t p) q := by
  obtain ⟨-, -, -, -, -, -, -, -, -, -, e0, e1⟩ := block_indices t
  funext a
  apply Fin.ext
  match a with
  | ⟨0, _⟩ => show win0_5.index t (0 : Fin 2) * 5000 + 1 * p.val = t.val * 5000 + p.val; rw [e0]; omega
  | ⟨1, _⟩ => show win0_5.index t (1 : Fin 2) * 64 + 1 * q.val = q.val; rw [e1]; omega

/-- What the body computes from step `t`'s blocks is, entry by entry, the score array read through step `t`'s block. -/
theorem block_entry (c : Dev nD) (t : Fin cfg0.N) (j : S5000x64.Idx) :
    k0_pay1 (F := Ideal) (iblk m c 0 t) (iblk m c 1 t) (iblk m c 2 t) (iblk m c 3 t) (iblk m c 4 t) j
      = scoreAtEntry m c (((cfg0.win 5).blk t).view.emb j) := by
  obtain ⟨p, q, rfl⟩ : ∃ (p : Fin 5000) (q : Fin 64), j = ix2 p q := ⟨j 0, j 1, eq_ix2 j⟩
  refine (Cert.EdgeScore.Block.pay_apply (iblk m c 0 t) (iblk m c 1 t) (iblk m c 2 t) (iblk m c 3 t) (iblk m c 4 t) p q).trans ?_
  rw [out_emb t p q]
  unfold scoreAtEntry
  rw [Cert.EdgeScore.score_apply]
  simp only [xs_block m c t p, ws_block m c t _ q, xd_block m c t p, wd_block m c t _ q, bias_block m c t q]

/-- WHAT STEP `t` WRITES BACK is its block of the score array. -/
theorem flushed_eq (c : Dev nD) (t : Fin cfg0.N) :
    (dats m 0 c).flushed 5 t = ((cfg0.win 5).blk t).view.read (Elt Ideal) (scoreAtEntry m c) := by
  rw [Value.flushed5]
  unfold out0_5
  rw [View.canon_unit_zero offsets_zero]
  simp only [View.ld_unit_zero (S := S5000x256) offsets_zero, View.ld_unit_zero (S := S256x64) offsets_zero,
    View.ld_unit_zero (S := S1x64) offsets_zero]
  funext j
  exact block_entry m c t j

/-- An index of the result array is in step `t`'s block iff each coordinate is in the block's range on its axis. -/
theorem mem_block (t : Fin cfg0.N) (i : S300000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17).slice (win0_5.rect t)).set ↔ _
  rw [View.set_slice_whole, Rect.mem_set_unit]
  exact Iff.rfl

/-- Every entry of the result lies in some step's block: row `r` in block `r / 5000`. -/
theorem cover (i : S300000x64.Idx) :
    ∃ t : Fin cfg0.N, (cfg0.win 5).flush t = true ∧ i ∈ ((cfg0.win 5).blk t).view.set := by
  have hi0 : (i 0).val < 300000 := (i 0).isLt
  have hi1 : (i 1).val < 64 := (i 1).isLt
  have hN : cfg0.N = 60 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-- THE RESULT ARRAY after the run is the score of the arrays as the region finds them. -/
theorem final (c : Dev nD) : (dats m 0 c).arrAt 5 cfg0.N = scoreAtEntry m c :=
  (dats m 0 c).arrAt_eq_of_cover 5 (scoreAtEntry m c) (fun t _ => flushed_eq m c t) cover

end Cert.EdgeScore.Array

end
-- ==== Proof.KernelResult.lean ====
/-
  The kernel program's result as a function of its five arguments.

  Before the region, the host part of the program selects the source rows and the destination rows of the feature table
  (an index below zero is first moved up by the table's height, then the rows are gathered), cuts the weight matrix into
  its upper and lower `256 × 64` halves and reshapes the bias to a `1 × 64` row. The region then leaves the edge score
  of exactly these arrays in the result, and entry `(0, q)` of the reshaped bias is entry `q` of the bias.
-/
import proofs.«162056_j80539226735106_1_alg».proof.Proof.KernelArray
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.EdgeScore.Result

open Cert.KernelIdeal Cert.KernelIdeal.Gen Cert.KernelIdeal.Value

variable (m : (ℓ : Loc nD τ sig) → Buf (Elt Ideal) ℓ) (ρ : Dev nD → PrngReg)

/-- The rows of the feature table that an index array selects: a negative index counts from the table's end. -/
abbrev rowsOf (x : (⟨S100000x256, .f32⟩ : BufTy).Contents (Elt Ideal)) (idx : (⟨S300000, .i32⟩ : BufTy).Contents (Elt Ideal)) :
    (⟨S300000x256, .f32⟩ : BufTy).Contents (Elt Ideal) :=
  Host.gather gather_S100000x256_S300000x1_S300000x256_1_0_n_n_0_1_1256 x
    (broadcastInDim S300000x1 ![0] bcast_S300000_S300000x1_0
      (select (cmpi .slt idx (broadcastInDim S300000 ![] bcast_S_S300000 (constantI S_ 32 0#32)))
        (addi idx (broadcastInDim S300000 ![] bcast_S_S300000 (constantI S_ 32 100000#32))) idx))

/-- The upper half of the weight matrix. -/
abbrev upperHalf (w : (⟨S512x64, .f32⟩ : BufTy).Contents (Elt Ideal)) : (⟨S256x64, .f32⟩ : BufTy).Contents (Elt Ideal) :=
  extractStridedSlice S256x64 ![0, 0] w slices_S512x64_S256x64_0_0

/-- The lower half of the weight matrix. -/
abbrev lowerHalf (w : (⟨S512x64, .f32⟩ : BufTy).Contents (Elt Ideal)) : (⟨S256x64, .f32⟩ : BufTy).Contents (Elt Ideal) :=
  extractStridedSlice S256x64 ![256, 0] w slices_S512x64_S256x64_256_0

/-- The region finds the gathered source rows in its first window's array, -/
theorem entry_xs (c : Dev nD) : (V m c main_v8 : S300000x256.Idx → EReal)
    = rowsOf (m ((c : Thread nD τ).loc main_arg0)) (m ((c : Thread nD τ).loc main_arg1)) := by
  dsimp only [Gen.V, Gen.hostOps0]; after_results <;> rfl

/-- the gathered destination rows in its second, -/
theorem entry_xd (c : Dev nD) : (V m c main_v15 : S300000x256.Idx → EReal)
    = rowsOf (m ((c : Thread nD τ).loc main_arg0)) (m ((c : Thread nD τ).loc main_arg2)) := by
  dsimp only [Gen.V, Gen.hostOps0]; after_results <;> rfl

/-- the two halves of the weight matrix in its third and fourth, -/
theorem entry_ws (c : Dev nD) : (V m c main_v0 : S256x64.Idx → EReal) = upperHalf (m ((c : Thread nD τ).loc main_arg3)) := by
  dsimp only [Gen.V, Gen.hostOps0]; after_results <;> rfl

theorem entry_wd (c : Dev nD) : (V m c main_v1 : S256x64.Idx → EReal) = lowerHalf (m ((c : Thread nD τ).loc main_arg3)) := by
  dsimp only [Gen.V, Gen.hostOps0]; after_results <;> rfl

/-- and the bias as a one-row matrix in its fifth. -/
theorem entry_bias (c : Dev nD) : (V m c main_v16 : S1x64.Idx → EReal)
    = shapeCast S1x64 (m ((c : Thread nD τ).loc main_arg4)) shapeCasts_S64_S1x64 := by
  dsimp only [Gen.V, Gen.hostOps0]; after_results <;> rfl

/-- Entry `(0, q)` of the bias reshaped to one row is entry `q` of the bias. -/
theorem bias_row (b : (⟨S64, .f32⟩ : BufTy).Contents (Elt Ideal)) (q : Fin 64) :
    shapeCast S1x64 b shapeCasts_S64_S1x64 (ix2 (0 : Fin 1) q) = b (ix1 q) := by
  refine shapeCast_apply b shapeCasts_S64_S1x64 (ix2 (0 : Fin 1) q) (ix1 q) ?_
  rw [Shape.rowMajor_val_one, Shape.rowMajor_val_two]
  show q.val = 0 * 64 + q.val
  omega

/-- The edge score of the program's arguments. -/
abbrev scoreOf (x : (⟨S100000x256, .f32⟩ : BufTy).Contents (Elt Ideal)) (src dst : (⟨S300000, .i32⟩ : BufTy).Contents (Elt Ideal))
    (w : (⟨S512x64, .f32⟩ : BufTy).Contents (Elt Ideal)) (b : (⟨S64, .f32⟩ : BufTy).Contents (Elt Ideal)) :
    (⟨S300000x64, .f32⟩ : BufTy).Contents (Elt Ideal) :=
  Cert.EdgeScore.score (E := 300000) (D := 256) (C := 64) (rowsOf x src) (rowsOf x dst) (upperHalf w) (lowerHalf w) (fun q => b (ix1 q))

/-- The score of the arrays the region finds is the score of the arguments. -/
theorem scoreAtEntry_eq (c : Dev nD) :
    Cert.EdgeScore.Array.scoreAtEntry m c
      = scoreOf (m ((c : Thread nD τ).loc main_arg0)) (m ((c : Thread nD τ).loc main_arg1)) (m ((c : Thread nD τ).loc main_arg2))
          (m ((c : Thread nD τ).loc main_arg3)) (m ((c : Thread nD τ).loc main_arg4)) := by
  unfold Cert.EdgeScore.Array.scoreAtEntry scoreOf
  rw [entry_xs, entry_xd, entry_ws, entry_wd, entry_bias]
  exact congrArg (Cert.EdgeScore.score (E := 300000) (D := 256) (C := 64) _ _ _ _) (funext fun q => bias_row _ q)

/-- THE RUN: the kernel program ends with the edge score of its arguments in the result, the arguments unchanged. -/
theorem run : θ_run defs (onTc (τ := τ) (main (F := Ideal))) ⟨m, fun _ => 0, ρ⟩ fun r => ∀ c : Dev nD,
      r.2.mem ((c : Thread nD τ).loc main_v17)
        = scoreOf (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (Cert.EdgeScore.Array.final m c)).trans (scoreAtEntry_eq m c), (h c).2⟩)
    (Value.run_blocks m ρ)

end Cert.EdgeScore.Result

end
-- ==== Proof.RefScore.lean ====
/-
  The reference computes the edge score.

  Its last stage is `(x[src] @ W[:256] + x[dst] @ W[256:]) + b`: two `dot_general`s of the gathered rows with the two
  slices of the weight matrix, added, then the bias broadcast over the edges. Read at entry `(e, c)`, each product is the
  sum over `k` of a gathered row's entry `(e, k)` times a slice's entry `(k, c)`, and the broadcast bias is `b c`:
  exactly `EdgeScore.score` of the two gathered arrays, the two slices and the bias.
-/
import proofs.«162056_j80539226735106_1_alg».proof.Proof.Gen.ReferenceIdeal.Read
import proofs.«162056_j80539226735106_1_alg».proof.Proof.Spec

noncomputable section

open scoped BigOperators

namespace Cert.EdgeScore.Ref

open Idealize.ShloMosaic Idealize.ShloMosaic.ValueIdx Cert.ReferenceIdeal Cert.ReferenceIdeal.Read

variable [Cert.ReferenceIdeal.Facts₀]

/-- The reference's result array is the score of its gathered rows, its weight slices and the bias. -/
theorem result_eq_score (x0 : (⟨S100000x256, .f32⟩ : BufTy).Contents (Elt Ideal))
    (x1 x2 : (⟨S300000, .i32⟩ : BufTy).Contents (Elt Ideal)) (x3 : (⟨S512x64, .f32⟩ : BufTy).Contents (Elt Ideal))
    (x4 : (⟨S64, .f32⟩ : BufTy).Contents (Elt Ideal)) :
    val_main_v21 (F := Ideal) x0 x1 x2 x3 x4
      = Cert.EdgeScore.score (E := 300000) (D := 256) (C := 64) (val_main_v8 (F := Ideal) x0 x1) (val_main_v16 (F := Ideal) x0 x2)
          (val_main_v0 (F := Ideal) x3) (val_main_v1 (F := Ideal) x3) (fun c => x4 (ix1 c)) := by
  funext i
  obtain ⟨e, c, rfl⟩ : ∃ (e : Fin 300000) (c : Fin 64), i = ix2 e c := ⟨i 0, i 1, eq_ix2 i⟩
  have l9 : ∀ k : Fin 256, lidx_main_v9 (ix2 e c) k = ix2 e k := fun k =>
    funext fun a => Fin.ext (by match a with | ⟨0, _⟩ => rfl | ⟨1, _⟩ => rfl)
  have r9 : ∀ k : Fin 256, ridx_main_v9 (ix2 e c) k = ix2 k c := fun k =>
    funext fun a => Fin.ext (by match a with | ⟨0, _⟩ => rfl | ⟨1, _⟩ => rfl)
  have l17 : ∀ k : Fin 256, lidx_main_v17 (ix2 e c) k = ix2 e k := fun k =>
    funext fun a => Fin.ext (by match a with | ⟨0, _⟩ => rfl | ⟨1, _⟩ => rfl)
  have r17 : ∀ k : Fin 256, ridx_main_v17 (ix2 e c) k = ix2 k c := fun k =>
    funext fun a => Fin.ext (by match a with | ⟨0, _⟩ => rfl | ⟨1, _⟩ => rfl)
  have hb : idx_main_v19 (idx_main_v20 (ix2 e c)) = ix1 c :=
    funext fun a => Fin.ext (by match a with | ⟨0, _⟩ => rfl)
  rw [val_main_v21_apply, val_main_v18_apply, val_main_v9_apply, val_main_v17_apply, val_main_v20_apply,
    val_main_v19_apply, Cert.EdgeScore.score_apply]
  simp only [l9, r9, l17, r17, hb]
  rfl

end Cert.EdgeScore.Ref

end
-- ==== Proof.lean ====
/-
  Edge scores of a message-passing predictor: `x[src] @ W[:256] + x[dst] @ W[256:] + b`.

  Both programs first gather, for each of the 300000 edges, the feature rows of its source and of its destination node
  (by the same host gather, after the same adjustment of negative indices) and cut the `512 × 64` weight matrix into its
  two `256 × 64` halves. The reference multiplies the two gathered arrays with the two halves, adds the products and adds
  the bias broadcast over the edges. The kernel does the same arithmetic block by block: sixty grid steps of 5000 edges,
  each step narrowing its operands to bf16 (the identity on the extended reals), multiplying into zero accumulators,
  adding the two products and then the bias row.

  On the extended reals both results are, at edge `e` and class `c`,
  `(∑ k, xs (e, k) * ws (k, c) + ∑ k, xd (e, k) * wd (k, c)) + b c`
  (`Cert.EdgeScore.score`): each matrix product is the plain sum over the contracted axis, the order of the three
  summands is the same on both sides, and no law that would need finite entries is used, so the precondition is never
  opened. The kernel side is read in three steps — one step's block entry by entry, the sixty blocks tiling the result
  array, and the arrays the region is handed as host terms of the arguments —; the reference side from its run, read one
  operation at a time. The frames of the two kernel programs are the generated ones; the reference's frame is its run
  with the result dropped; the idealization rewrote nothing, so `preserves` is trivial.
-/
import proofs.«162056_j80539226735106_1_alg».proof.Defs
import proofs.«162056_j80539226735106_1_alg».proof.Proof.Gen.Kernel
import proofs.«162056_j80539226735106_1_alg».proof.Proof.Gen.Kernel.Frame
import proofs.«162056_j80539226735106_1_alg».proof.Proof.Gen.KernelIdeal
import proofs.«162056_j80539226735106_1_alg».proof.Proof.Gen.KernelIdeal.Frame
import proofs.«162056_j80539226735106_1_alg».proof.Proof.Gen.KernelIdeal.Value
import proofs.«162056_j80539226735106_1_alg».proof.Proof.Gen.ReferenceIdeal
import proofs.«162056_j80539226735106_1_alg».proof.Proof.Gen.ReferenceIdeal.Run
import proofs.«162056_j80539226735106_1_alg».proof.Proof.Gen.ReferenceIdeal.Read
import proofs.«162056_j80539226735106_1_alg».proof.Proof.Gen.Pre_finite_inputs
import proofs.«162056_j80539226735106_1_alg».proof.Proof.KernelResult
import proofs.«162056_j80539226735106_1_alg».proof.Proof.RefScore
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's stages — its gathered rows, its weight halves — are the kernel program's host terms: the two
    programs print the same host operations over the same shapes, so the score of the one's is the score of the other's. -/
theorem ref_score_eq (x : (⟨Cert.KernelIdeal.S100000x256, .f32⟩ : BufTy).Contents (Elt Ideal))
    (src dst : (⟨Cert.KernelIdeal.S300000, .i32⟩ : BufTy).Contents (Elt Ideal))
    (w : (⟨Cert.KernelIdeal.S512x64, .f32⟩ : BufTy).Contents (Elt Ideal)) (b : (⟨Cert.KernelIdeal.S64, .f32⟩ : BufTy).Contents (Elt Ideal)) :
    Cert.ReferenceIdeal.Read.val_main_v21 (F := Ideal) x src dst w b = Cert.EdgeScore.Result.scoreOf x src dst w b := by
  rw [Cert.EdgeScore.Ref.result_eq_score]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the edge score of arguments that agree. -/
theorem algebraic : Cert.algebraic_KernelIdeal_ReferenceIdeal := by
  intro m ρ m' ρ' _ hagree
  refine ⟨_, Cert.EdgeScore.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1,
    (hagree c).2.2.2.2]
  exact ref_score_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
